-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1024x1024 : Shape := ⟨3, ![1, 1024, 1024]⟩

abbrev nBuf : Space → Nat
  | .hbm => 17
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4x4096x1024, .bf16⟩
  | .hbm, ⟨14, _⟩ => ⟨S4x4096x1024, .bf16⟩
  | .hbm, ⟨15, _⟩ => ⟨S4x4096x1024, .bf16⟩
  | .hbm, ⟨16, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .f32⟩
  | .local _ .vmem, ⟨21, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x4096x1024.size a
  hwx0_7 : ∀ i : grid0.Coords, EltTy.bits .bf16 = 32 ∨ (Rect.block (s := S4x4096x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S4x4096x1024.size a
  hwx0_8 : ∀ i : grid0.Coords, EltTy.bits .bf16 = 32 ∨ (Rect.block (s := S4x4096x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x4096x1024.size a
  hwx0_9 : ∀ i : grid0.Coords, EltTy.bits .bf16 = 32 ∨ (Rect.block (s := S4x4096x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x4096x1024.size a
  hwx1_1 : ∀ i : grid1.Coords, EltTy.bits .bf16 = 32 ∨ (Rect.block (s := S4x4096x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .bf16 = 32 ∨ (Rect.block (s := S4x4096x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x4096x4096 : Shape := ⟨3, ![4, 4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Spec.lean ====
/-
  Sigmoid attention over three linear projections, as one function of the seven argument arrays.

  For a batch entry `n`, a row `s` and a feature `e`, a projection is `(∑ d, X[n,s,d] · W[d,e]) + b[e]`.
  With `Q`, `K`, `V` the three projections, the weight of key row `k` for query row `q` is the logistic
  function of `(∑ e, Q[n,q,e] · K[n,k,e]) · 2⁻⁵` (no normalisation over the keys), and the result is
  `∑ k, weight[n,q,k] · V[n,k,d]` over all 4096 key rows.

  The sum over the 4096 key rows is also the sum of four sums over 1024 consecutive key rows, added one after
  the other onto zero: addition of extended reals is commutative and associative, so this needs no finiteness.
-/
import Idealize.ShloMosaic.Lib.ValueIdx
import Idealize.ShloMosaic.PureOps.Ideal
import Idealize.ShloMosaic.PureOps.Ideal.Laws

noncomputable section

open scoped BigOperators

namespace SigmoidAttention

open Idealize.ShloMosaic Idealize.ShloMosaic.ValueIdx

/-- The activations' shape: batch 4, 4096 rows, 1024 features. -/
abbrev Acts : Shape := ⟨3, ![4, 4096, 1024]⟩
/-- A weight matrix, input feature by output feature. -/
abbrev Wts : Shape := ⟨2, ![1024, 1024]⟩
/-- A bias, one entry per output feature. -/
abbrev Bias : Shape := ⟨1, ![1024]⟩

/-- One entry of a linear projection: row `(n, s)` of `X` against column `e` of `W`, plus the bias. -/
def proj (X : Acts.Idx → EReal) (W : Wts.Idx → EReal) (b : Bias.Idx → EReal) (n : Fin 4) (s : Fin 4096) (e : Fin 1024) : EReal :=
  (∑ d : Fin 1024, X (ix3 n s d) * W (ix2 d e)) + b (ix1 e)

/-- The scale both programs apply to a score: the word of `2⁻⁵ = 1 / √1024`. -/
def scale : EReal := Ideal.ofBits .f32 0x3D000000#32

/-- The weight of key row `k` for query row `q`: the logistic function of the scaled inner product. -/
def weight (Q K : Fin 4 → Fin 4096 → Fin 1024 → EReal) (n : Fin 4) (q k : Fin 4096) : EReal :=
  Ideal.logistic ((∑ e : Fin 1024, Q n q e * K n k e) * scale)

/-- The result at `(n, q, d)`: every key row's value entry, weighted. -/
def attn (Q K V : Fin 4 → Fin 4096 → Fin 1024 → EReal) (n : Fin 4) (q : Fin 4096) (d : Fin 1024) : EReal :=
  ∑ k : Fin 4096, weight Q K n q k * V n k d

/-- The whole result array, from the seven arguments. -/
def out (X : Acts.Idx → EReal) (Wq : Wts.Idx → EReal) (bq : Bias.Idx → EReal) (Wk : Wts.Idx → EReal) (bk : Bias.Idx → EReal)
    (Wv : Wts.Idx → EReal) (bv : Bias.Idx → EReal) : Acts.Idx → EReal :=
  fun i => attn (proj X Wq bq) (proj X Wk bk) (proj X Wv bv) (i 0) (i 1) (i 2)

/-! ## The keys in four blocks of 1024 rows -/

/-- Row `k` of key block `j`. -/
def keyRow (j : Fin 4) (k : Fin 1024) : Fin 4096 := ⟨j.val * 1024 + k.val, by have := j.isLt; have := k.isLt; omega⟩

/-- Key block `j`'s share of the result at `(n, q, d)`. -/
def blockTerm (Q K V : Fin 4 → Fin 4096 → Fin 1024 → EReal) (n : Fin 4) (q : Fin 4096) (d : Fin 1024) (j : Fin 4) : EReal :=
  ∑ k : Fin 1024, weight Q K n q (keyRow j k) * V n (keyRow j k) d

/-- The running sum through block `j`, started from the zero word. -/
def runSum (g : Fin 4 → EReal) : (j : ℕ) → j < 4 → EReal
  | 0, h => Ideal.ofBits .f32 0x00000000#32 + g ⟨0, h⟩
  | j + 1, h => runSum g j (Nat.lt_of_succ_lt h) + g ⟨j + 1, h⟩

/-- A sum over the 4096 key rows, block by block. -/
theorem sum_keyRows (f : Fin 4096 → EReal) : ∑ k : Fin 4096, f k = ∑ j : Fin 4, ∑ k : Fin 1024, f (keyRow j k) := by
  rw [← Fintype.sum_prod_type']
  refine (Fintype.sum_equiv (finProdFinEquiv (m := 4) (n := 1024)) (fun x : Fin 4 × Fin 1024 => f (keyRow x.1 x.2)) f
    (fun x => congrArg f (Fin.ext ?_))).symm
  show x.1.val * 1024 + x.2.val = x.2.val + 1024 * x.1.val
  omega

/-- The running sum through the last block is the sum of the four blocks. -/
theorem runSum_last (g : Fin 4 → EReal) (h : 3 < 4) : runSum g 3 h = ∑ j : Fin 4, g j := by
  simp only [runSum]
  rw [Fin.sum_univ_four, Ideal.ofBits_zero_f32, zero_add]
  rfl

/-- The result is the running sum of the four key blocks' shares. -/
theorem attn_eq_runSum (Q K V : Fin 4 → Fin 4096 → Fin 1024 → EReal) (n : Fin 4) (q : Fin 4096) (d : Fin 1024) (h : 3 < 4) :
    attn Q K V n q d = runSum (blockTerm Q K V n q d) 3 h := by
  rw [runSum_last]
  unfold attn blockTerm
  exact sum_keyRows fun k => weight Q K n q k * V n k d

end SigmoidAttention

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.ProjValue.lean ====
/-
  The first kernel region: after it, each of its three result arrays holds a linear projection of the activations.
-/
import proofs.«145021_j72662256714429_1_alg».proof.Defs
import proofs.«145021_j72662256714429_1_alg».proof.Proof.Gen.KernelIdeal.Frame
import proofs.«145021_j72662256714429_1_alg».proof.Proof.Spec
import proofs.«145021_j72662256714429_1_alg».proof.Proof.LibRowOps
import Idealize.ShloMosaic.Lib.Pipeline.Value
import Idealize.ShloMosaic.Lib.StableHlo.Run

noncomputable section

open scoped BigOperators

namespace Cert.KernelIdeal.ProjValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them

Before the region the host narrows the three weight matrices, which changes no value, and lays each bias out as one row. -/

/-- The activations reach the region as launched: no host operation writes them. -/
theorem entry_x (c : Dev nD) : V1 m ρ c main_arg0 = m ((c.tc : Thread nD τ).loc main_arg0) := by
  show StableHlo.after hostOps0 (W0 m ρ c) (Proc.devRef .tc main_arg0) = _
  refine (StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))).trans ?_
  rfl

/-- The first weight matrix reaches the region narrowed, which keeps every value. -/
theorem entry_wq (c : Dev nD) : @Eq (FVec Ideal S1024x1024 .bf16) (V1 m ρ c main_v0)
    (truncf .bf16 (m ((c.tc : Thread nD τ).loc main_arg1) : FVec Ideal S1024x1024 .f32) bitsLt_bf16_f32) := by
  show StableHlo.after hostOps0 _ (Proc.devRef .tc main_v0) = _
  after_results

/-- The second weight matrix reaches the region narrowed, which keeps every value. -/
theorem entry_wk (c : Dev nD) : @Eq (FVec Ideal S1024x1024 .bf16) (V1 m ρ c main_v1)
    (truncf .bf16 (m ((c.tc : Thread nD τ).loc main_arg3) : FVec Ideal S1024x1024 .f32) bitsLt_bf16_f32) := by
  show StableHlo.after hostOps0 _ (Proc.devRef .tc main_v1) = _
  after_results

/-- The third weight matrix reaches the region narrowed, which keeps every value. -/
theorem entry_wv (c : Dev nD) : @Eq (FVec Ideal S1024x1024 .bf16) (V1 m ρ c main_v2)
    (truncf .bf16 (m ((c.tc : Thread nD τ).loc main_arg5) : FVec Ideal S1024x1024 .f32) bitsLt_bf16_f32) := by
  show StableHlo.after hostOps0 _ (Proc.devRef .tc main_v2) = _
  after_results

/-- The first bias reaches the region as one row. -/
theorem entry_bq (c : Dev nD) : @Eq (FVec Ideal S1x1024 .f32) (V1 m ρ c main_v3)
    (shapeCast S1x1024 (m ((c.tc : Thread nD τ).loc main_arg2) : FVec Ideal S1024 .f32) shapeCasts_S1024_S1x1024) := by
  show StableHlo.after hostOps0 _ (Proc.devRef .tc main_v3) = _
  after_results
  rfl

/-- The second bias reaches the region as one row. -/
theorem entry_bk (c : Dev nD) : @Eq (FVec Ideal S1x1024 .f32) (V1 m ρ c main_v4)
    (shapeCast S1x1024 (m ((c.tc : Thread nD τ).loc main_arg4) : FVec Ideal S1024 .f32) shapeCasts_S1024_S1x1024) := by
  show StableHlo.after hostOps0 _ (Proc.devRef .tc main_v4) = _
  after_results
  rfl

/-- The third bias reaches the region as one row. -/
theorem entry_bv (c : Dev nD) : @Eq (FVec Ideal S1x1024 .f32) (V1 m ρ c main_v5)
    (shapeCast S1x1024 (m ((c.tc : Thread nD τ).loc main_arg6) : FVec Ideal S1024 .f32) shapeCasts_S1024_S1x1024) := by
  show StableHlo.after hostOps0 _ (Proc.devRef .tc main_v5) = _
  after_results
  rfl

/-! ## The body's results at an entry of their blocks

Each of the three results is the activations' block, narrowed, times a weight matrix into a zero accumulator, plus a
bias row broadcast down the rows, narrowed again and given back its unit axis. At the ideal values the narrowings and
the changes of layout keep every value, so entry `(0, r, e)` is row `r` of the block against column `e` of the matrix,
plus entry `e` of the bias row. -/

/-- The zero offsets of a rank-3 buffer, as a constant function. -/
theorem zeros3 : (![0, 0, 0] : Fin 3 → Nat) = fun _ => 0 := funext fun a => by fin_cases a <;> rfl
/-- The zero offsets of a rank-2 buffer, as a constant function. -/
theorem zeros2 : (![0, 0] : Fin 2 → Nat) = fun _ => 0 := funext fun a => by fin_cases a <;> rfl

/-- Entry `(0, r, e)` of the first result block. -/
theorem block_q_apply (x : Vec Ideal S1x512x1024 .f32) (w : Vec Ideal S1024x1024 .bf16) (b : Vec Ideal S1x1024 .f32)
    (r : Fin 512) (e : Fin 1024) :
    k0_pay4 x w b (ix3 (0 : Fin 1) r e)
      = (∑ d : Fin 1024, x (ix3 (0 : Fin 1) r d) * w (ix2 d e)) + b (ix2 (0 : Fin 1) e) := by
  unfold k0_pay4 k0_pay2
  refine (shapeCast_ab_1ab_apply _ shapeCasts_S512x1024_S1x512x1024 (0 : Fin 1) r e).trans ?_
  show (matmul (F := Ideal) dot_S512x1024_S1024x1024_S512x1024_1_0_0_1_n_n none
        (truncf .bf16 (shapeCast S512x1024 x shapeCasts_S1x512x1024_S512x1024 : FVec Ideal S512x1024 .f32) bitsLt_bf16_f32)
        (shapeCast S1024x1024 w shapeCasts_S1024x1024_S1024x1024 : FVec Ideal S1024x1024 .bf16)
        (constant S512x1024 .f32 0x00000000#32) (ix2 r e) : EReal)
      + (broadcastTo S512x1024 (shapeCast S1x1024 b shapeCasts_S1x1024_S1x1024) broadcasts_S1x1024_S512x1024 (ix2 r e) : EReal) = _
  refine congrArg₂ (· + ·) ?_ ?_
  · refine (RowOps.matmul_plain_apply _ rfl none _ _ r e).trans ?_
    refine Finset.sum_congr rfl fun d _ => ?_
    refine congrArg₂ (· * ·) ?_ ?_
    · exact shapeCast_1ab_ab_apply x shapeCasts_S1x512x1024_S512x1024 r d
    · exact congrFun (shapeCast_self w shapeCasts_S1024x1024_S1024x1024) (ix2 d e)
  · refine (broadcastTo_1b_ab_apply _ broadcasts_S1x1024_S512x1024 r e).trans ?_
    exact congrFun (shapeCast_self b shapeCasts_S1x1024_S1x1024) (ix2 (0 : Fin 1) e)

/-- Entry `(0, r, e)` of the second result block. -/
theorem block_k_apply (x : Vec Ideal S1x512x1024 .f32) (w : Vec Ideal S1024x1024 .bf16) (b : Vec Ideal S1x1024 .f32)
    (r : Fin 512) (e : Fin 1024) :
    k0_pay5 x w b (ix3 (0 : Fin 1) r e)
      = (∑ d : Fin 1024, x (ix3 (0 : Fin 1) r d) * w (ix2 d e)) + b (ix2 (0 : Fin 1) e) := by
  unfold k0_pay5 k0_pay2
  refine (shapeCast_ab_1ab_apply _ shapeCasts_S512x1024_S1x512x1024 (0 : Fin 1) r e).trans ?_
  show (matmul (F := Ideal) dot_S512x1024_S1024x1024_S512x1024_1_0_0_1_n_n none
        (truncf .bf16 (shapeCast S512x1024 x shapeCasts_S1x512x1024_S512x1024 : FVec Ideal S512x1024 .f32) bitsLt_bf16_f32)
        (shapeCast S1024x1024 w shapeCasts_S1024x1024_S1024x1024 : FVec Ideal S1024x1024 .bf16)
        (constant S512x1024 .f32 0x00000000#32) (ix2 r e) : EReal)
      + (broadcastTo S512x1024 (shapeCast S1x1024 b shapeCasts_S1x1024_S1x1024) broadcasts_S1x1024_S512x1024 (ix2 r e) : EReal) = _
  refine congrArg₂ (· + ·) ?_ ?_
  · refine (RowOps.matmul_plain_apply _ rfl none _ _ r e).trans ?_
    refine Finset.sum_congr rfl fun d _ => ?_
    refine congrArg₂ (· * ·) ?_ ?_
    · exact shapeCast_1ab_ab_apply x shapeCasts_S1x512x1024_S512x1024 r d
    · exact congrFun (shapeCast_self w shapeCasts_S1024x1024_S1024x1024) (ix2 d e)
  · refine (broadcastTo_1b_ab_apply _ broadcasts_S1x1024_S512x1024 r e).trans ?_
    exact congrFun (shapeCast_self b shapeCasts_S1x1024_S1x1024) (ix2 (0 : Fin 1) e)

/-- Entry `(0, r, e)` of the third result block. -/
theorem block_v_apply (x : Vec Ideal S1x512x1024 .f32) (w : Vec Ideal S1024x1024 .bf16) (b : Vec Ideal S1x1024 .f32)
    (r : Fin 512) (e : Fin 1024) :
    k0_pay1 (k0_pay3 x w b) (ix3 (0 : Fin 1) r e)
      = (∑ d : Fin 1024, x (ix3 (0 : Fin 1) r d) * w (ix2 d e)) + b (ix2 (0 : Fin 1) e) := by
  unfold k0_pay1 k0_pay3 k0_pay2
  refine (shapeCast_ab_1ab_apply _ shapeCasts_S512x1024_S1x512x1024 (0 : Fin 1) r e).trans ?_
  show (matmul (F := Ideal) dot_S512x1024_S1024x1024_S512x1024_1_0_0_1_n_n none
        (truncf .bf16 (shapeCast S512x1024 x shapeCasts_S1x512x1024_S512x1024 : FVec Ideal S512x1024 .f32) bitsLt_bf16_f32)
        (shapeCast S1024x1024 w shapeCasts_S1024x1024_S1024x1024 : FVec Ideal S1024x1024 .bf16)
        (constant S512x1024 .f32 0x00000000#32) (ix2 r e) : EReal)
      + (broadcastTo S512x1024 (shapeCast S1x1024 b shapeCasts_S1x1024_S1x1024) broadcasts_S1x1024_S512x1024 (ix2 r e) : EReal) = _
  refine congrArg₂ (· + ·) ?_ ?_
  · refine (RowOps.matmul_plain_apply _ rfl none _ _ r e).trans ?_
    refine Finset.sum_congr rfl fun d _ => ?_
    refine congrArg₂ (· * ·) ?_ ?_
    · exact shapeCast_1ab_ab_apply x shapeCasts_S1x512x1024_S512x1024 r d
    · exact congrFun (shapeCast_self w shapeCasts_S1024x1024_S1024x1024) (ix2 d e)
  · refine (broadcastTo_1b_ab_apply _ broadcasts_S1x1024_S512x1024 r e).trans ?_
    exact congrFun (shapeCast_self b shapeCasts_S1x1024_S1x1024) (ix2 (0 : Fin 1) e)

/-! ## The windows' blocks inside their arrays

The grid is 4 by 8: point `t` works on batch `t / 8` and on the rows of slab `t % 8` (512 rows each). The weight
matrices and the bias rows are staged whole. -/

/-- The block indices of every window of the region at every point of the grid. -/
theorem block_indices : ∀ t : Fin cfg0.N,
    (win0_0.index t (0 : Fin 3) = t.val / 8 ∧ win0_0.index t (1 : Fin 3) = t.val % 8 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val / 8 ∧ win0_7.index t (1 : Fin 3) = t.val % 8 ∧ win0_7.index t (2 : Fin 3) = 0)
    ∧ (win0_8.index t (0 : Fin 3) = t.val / 8 ∧ win0_8.index t (1 : Fin 3) = t.val % 8 ∧ win0_8.index t (2 : Fin 3) = 0)
    ∧ (win0_9.index t (0 : Fin 3) = t.val / 8 ∧ win0_9.index t (1 : Fin 3) = t.val % 8 ∧ win0_9.index t (2 : Fin 3) = 0) :=
  (by decide +kernel : ∀ t : Fin grid0.N, _)

/-- Entry `(0, r, d)` of the activations' block at point `t` is the array's entry at batch `t / 8`, row `(t % 8) * 512 + r`. -/
theorem x_block_apply (A : S4x4096x1024.Idx → EReal) (t : Fin cfg0.N) (r : Fin 512) (d : Fin 1024) (n : Fin 4) (s : Fin 4096)
    (hn : n.val = t.val / 8) (hs : s.val = t.val % 8 * 512 + r.val) :
    ((cfg0.win 0).blk t).view.read (Elt Ideal) A (ix3 (0 : Fin 1) r d) = A (ix3 n s d) := by
  obtain ⟨⟨e0, e1, e2⟩, -⟩ := block_indices t
  show A (((cfg0.win 0).blk t).view.emb (ix3 (0 : Fin 1) r d)) = A (ix3 n s d)
  refine congrArg A (funext fun a => Fin.ext ?_)
  match a with
  | ⟨0, _⟩ => show win0_0.index t (0 : Fin 3) * 1 + 1 * 0 = n.val; omega
  | ⟨1, _⟩ => show win0_0.index t (1 : Fin 3) * 512 + 1 * r.val = s.val; omega
  | ⟨2, _⟩ => show win0_0.index t (2 : Fin 3) * 1024 + 1 * d.val = d.val; omega

/-- The first weight matrix is staged whole: its block at any point is the matrix. -/
theorem wq_block_apply (A : S1024x1024.Idx → EReal) (t : Fin cfg0.N) (d e : Fin 1024) :
    ((cfg0.win 1).blk t).view.read (Elt Ideal) A (ix2 d e) = A (ix2 d e) := by
  obtain ⟨-, ⟨e0, e1⟩, -⟩ := block_indices t
  show A (((cfg0.win 1).blk t).view.emb (ix2 d e)) = A (ix2 d e)
  refine congrArg A (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

/-- The second weight matrix is staged whole: its block at any point is the matrix. -/
theorem wk_block_apply (A : S1024x1024.Idx → EReal) (t : Fin cfg0.N) (d e : Fin 1024) :
    ((cfg0.win 2).blk t).view.read (Elt Ideal) A (ix2 d e) = A (ix2 d e) := by
  obtain ⟨-, -, ⟨e0, e1⟩, -⟩ := block_indices t
  show A (((cfg0.win 2).blk t).view.emb (ix2 d e)) = A (ix2 d e)
  refine congrArg A (funext fun a => Fin.ext ?_)
  match a with
  | ⟨0, _⟩ => show win0_2.index t (0 : Fin 2) * 1024 + 1 * d.val = d.val; omega
  | ⟨1, _⟩ => show win0_2.index t (1 : Fin 2) * 1024 + 1 * e.val = e.val; omega

/-- The third weight matrix is staged whole: its block at any point is the matrix. -/
theorem wv_block_apply (A : S1024x1024.Idx → EReal) (t : Fin cfg0.N) (d e : Fin 1024) :
    ((cfg0.win 3).blk t).view.read (Elt Ideal) A (ix2 d e) = A (ix2 d e) := by
  obtain ⟨-, -, -, ⟨e0, e1⟩, -⟩ := block_indices t
  show A (((cfg0.win 3).blk t).view.emb (ix2 d e)) = A (ix2 d e)
  refine congrArg A (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- The first bias row is staged whole: its block at any point is the row. -/
theorem bq_block_apply (A : S1x1024.Idx → EReal) (t : Fin cfg0.N) (e : Fin 1024) :
    ((cfg0.win 4).blk t).view.read (Elt Ideal) A (ix2 (0 : Fin 1) e) = A (ix2 (0 : Fin 1) e) := by
  obtain ⟨-, -, -, -, ⟨e0, e1⟩, -⟩ := block_indices t
  show A (((cfg0.win 4).blk t).view.emb (ix2 (0 : Fin 1) e)) = A (ix2 (0 : Fin 1) e)
  refine congrArg A (funext fun a => Fin.ext ?_)
  match a with
  | ⟨0, _⟩ => show win0_4.index t (0 : Fin 2) * 1 + 1 * 0 = 0; omega
  | ⟨1, _⟩ => show win0_4.index t (1 : Fin 2) * 1024 + 1 * e.val = e.val; omega

/-- The second bias row is staged whole: its block at any point is the row. -/
theorem bk_block_apply (A : S1x1024.Idx → EReal) (t : Fin cfg0.N) (e : Fin 1024) :
    ((cfg0.win 5).blk t).view.read (Elt Ideal) A (ix2 (0 : Fin 1) e) = A (ix2 (0 : Fin 1) e) := by
  obtain ⟨-, -, -, -, -, ⟨e0, e1⟩, -⟩ := block_indices t
  show A (((cfg0.win 5).blk t).view.emb (ix2 (0 : Fin 1) e)) = A (ix2 (0 : Fin 1) e)
  refine congrArg A (funext fun a => Fin.ext ?_)
  match a with
  | ⟨0, _⟩ => show win0_5.index t (0 : Fin 2) * 1 + 1 * 0 = 0; omega
  | ⟨1, _⟩ => show win0_5.index t (1 : Fin 2) * 1024 + 1 * e.val = e.val; omega

/-- The third bias row is staged whole: its block at any point is the row. -/
theorem bv_block_apply (A : S1x1024.Idx → EReal) (t : Fin cfg0.N) (e : Fin 1024) :
    ((cfg0.win 6).blk t).view.read (Elt Ideal) A (ix2 (0 : Fin 1) e) = A (ix2 (0 : Fin 1) e) := by
  obtain ⟨-, -, -, -, -, -, ⟨e0, e1⟩, -⟩ := block_indices t
  show A (((cfg0.win 6).blk t).view.emb (ix2 (0 : Fin 1) e)) = A (ix2 (0 : Fin 1) e)
  refine congrArg A (funext fun a => Fin.ext ?_)
  match a with
  | ⟨0, _⟩ => show win0_6.index t (0 : Fin 2) * 1 + 1 * 0 = 0; omega
  | ⟨1, _⟩ => show win0_6.index t (1 : Fin 2) * 1024 + 1 * e.val = e.val; omega

/-! ## What a point writes back, and the whole arrays

Point `t` writes back, to each result array, the block of batch `t / 8` and slab `t % 8` of that array's projection;
the 32 blocks fill the array, so the array ends holding the projection. -/

/-- A linear projection of the activations as one array. -/
abbrev projArr (X : S4x4096x1024.Idx → EReal) (W : S1024x1024.Idx → EReal) (b : S1024.Idx → EReal) : S4x4096x1024.Idx → EReal :=
  fun i => SigmoidAttention.proj X W b (i 0) (i 1) (i 2)

/-- Point `t` writes back, to the first result array, its block of the first projection. -/
theorem flushed_q (c : Dev nD) (t : Fin cfg0.N) :
    (dat0 (V1 m ρ) c).flushed 7 t = ((cfg0.win 7).blk t).view.read (Elt Ideal)
      (projArr (m ((c.tc : Thread nD τ).loc main_arg0)) (m ((c.tc : Thread nD τ).loc main_arg1)) (m ((c.tc : Thread nD τ).loc main_arg2))) := by
  show (cfg0.win 7).cut (grid0.coords t) ((dat0 (V1 m ρ) c).after 7 t) = _
  rw [after0_7]
  unfold out0_7
  rw [View.canon_unit_zero zeros3]
  simp only [View.ld_unit_zero (S := S1x512x1024) zeros3, View.ld_unit_zero (S := S1024x1024) zeros2, View.ld_unit_zero (S := S1x1024) zeros2]
  funext y
  obtain ⟨u, r, e, rfl⟩ : ∃ (u : Fin 1) (r : Fin 512) (e : Fin 1024), (y : S1x512x1024.Idx) = ix3 u r e := ⟨y 0, y 1, y 2, eq_ix3 _⟩
  obtain rfl : u = 0 := Subsingleton.elim _ _
  have ht : t.val < 32 := lt_of_lt_of_eq t.isLt N_0
  obtain ⟨-, -, -, -, -, -, -, ⟨o0, o1, o2⟩, -⟩ := block_indices t
  obtain ⟨n, hn⟩ : ∃ n : Fin 4, n.val = t.val / 8 := ⟨⟨t.val / 8, by omega⟩, rfl⟩
  obtain ⟨s, hs⟩ : ∃ s : Fin 4096, s.val = t.val % 8 * 512 + r.val := ⟨⟨t.val % 8 * 512 + r.val, by have := r.isLt; omega⟩, rfl⟩
  -- the entry's place in the array
  have hemb : ((cfg0.win 7).blk t).view.emb (ix3 (0 : Fin 1) r e) = ix3 n s e := funext fun a => Fin.ext (by
    match a with
    | ⟨0, _⟩ => show win0_7.index t (0 : Fin 3) * 1 + 1 * 0 = n.val; omega
    | ⟨1, _⟩ => show win0_7.index t (1 : Fin 3) * 512 + 1 * r.val = s.val; omega
    | ⟨2, _⟩ => show win0_7.index t (2 : Fin 3) * 1024 + 1 * e.val = e.val; omega)
  -- the three input blocks, read where that entry needs them
  have hx : ∀ d : Fin 1024, iblk0 (V1 m ρ) c 0 t (ix3 (0 : Fin 1) r d) = m ((c.tc : Thread nD τ).loc main_arg0) (ix3 n s d) := fun d =>
    (x_block_apply (V1 m ρ c main_arg0) t r d n s hn hs).trans (congrFun (entry_x m ρ c) (ix3 n s d))
  have hw : ∀ d : Fin 1024, iblk0 (V1 m ρ) c 1 t (ix2 d e) = m ((c.tc : Thread nD τ).loc main_arg1) (ix2 d e) := fun d =>
    (wq_block_apply (V1 m ρ c main_v0) t d e).trans (congrFun (entry_wq m ρ c) (ix2 d e))
  have hb : iblk0 (V1 m ρ) c 4 t (ix2 (0 : Fin 1) e) = m ((c.tc : Thread nD τ).loc main_arg2) (ix1 e) :=
    ((bq_block_apply (V1 m ρ c main_v3) t e).trans (congrFun (entry_bq m ρ c) (ix2 (0 : Fin 1) e))).trans
      (shapeCast_a_1a_apply _ shapeCasts_S1024_S1x1024 (0 : Fin 1) e)
  show k0_pay4 (iblk0 (V1 m ρ) c 0 t) (iblk0 (V1 m ρ) c 1 t) (iblk0 (V1 m ρ) c 4 t) (ix3 (0 : Fin 1) r e)
    = projArr (m ((c.tc : Thread nD τ).loc main_arg0)) (m ((c.tc : Thread nD τ).loc main_arg1)) (m ((c.tc : Thread nD τ).loc main_arg2))
        (((cfg0.win 7).blk t).view.emb (ix3 (0 : Fin 1) r e))
  rw [hemb]
  refine (block_q_apply (iblk0 (V1 m ρ) c 0 t) (iblk0 (V1 m ρ) c 1 t) (iblk0 (V1 m ρ) c 4 t) r e).trans ?_
  exact congrArg₂ (· + ·) (Finset.sum_congr rfl fun d _ => congrArg₂ (· * ·) (hx d) (hw d)) hb

/-- Point `t` writes back, to the second result array, its block of the second projection. -/
theorem flushed_k (c : Dev nD) (t : Fin cfg0.N) :
    (dat0 (V1 m ρ) c).flushed 8 t = ((cfg0.win 8).blk t).view.read (Elt Ideal)
      (projArr (m ((c.tc : Thread nD τ).loc main_arg0)) (m ((c.tc : Thread nD τ).loc main_arg3)) (m ((c.tc : Thread nD τ).loc main_arg4))) := by
  show (cfg0.win 8).cut (grid0.coords t) ((dat0 (V1 m ρ) c).after 8 t) = _
  rw [after0_8]
  unfold out0_8
  rw [View.canon_unit_zero zeros3]
  simp only [View.ld_unit_zero (S := S1x512x1024) zeros3, View.ld_unit_zero (S := S1024x1024) zeros2, View.ld_unit_zero (S := S1x1024) zeros2]
  funext y
  obtain ⟨u, r, e, rfl⟩ : ∃ (u : Fin 1) (r : Fin 512) (e : Fin 1024), (y : S1x512x1024.Idx) = ix3 u r e := ⟨y 0, y 1, y 2, eq_ix3 _⟩
  obtain rfl : u = 0 := Subsingleton.elim _ _
  have ht : t.val < 32 := lt_of_lt_of_eq t.isLt N_0
  obtain ⟨-, -, -, -, -, -, -, -, ⟨o0, o1, o2⟩, -⟩ := block_indices t
  obtain ⟨n, hn⟩ : ∃ n : Fin 4, n.val = t.val / 8 := ⟨⟨t.val / 8, by omega⟩, rfl⟩
  obtain ⟨s, hs⟩ : ∃ s : Fin 4096, s.val = t.val % 8 * 512 + r.val := ⟨⟨t.val % 8 * 512 + r.val, by have := r.isLt; omega⟩, rfl⟩
  -- the entry's place in the array
  have hemb : ((cfg0.win 8).blk t).view.emb (ix3 (0 : Fin 1) r e) = ix3 n s e := funext fun a => Fin.ext (by
    match a with
    | ⟨0, _⟩ => show win0_8.index t (0 : Fin 3) * 1 + 1 * 0 = n.val; omega
    | ⟨1, _⟩ => show win0_8.index t (1 : Fin 3) * 512 + 1 * r.val = s.val; omega
    | ⟨2, _⟩ => show win0_8.index t (2 : Fin 3) * 1024 + 1 * e.val = e.val; omega)
  -- the three input blocks, read where that entry needs them
  have hx : ∀ d : Fin 1024, iblk0 (V1 m ρ) c 0 t (ix3 (0 : Fin 1) r d) = m ((c.tc : Thread nD τ).loc main_arg0) (ix3 n s d) := fun d =>
    (x_block_apply (V1 m ρ c main_arg0) t r d n s hn hs).trans (congrFun (entry_x m ρ c) (ix3 n s d))
  have hw : ∀ d : Fin 1024, iblk0 (V1 m ρ) c 2 t (ix2 d e) = m ((c.tc : Thread nD τ).loc main_arg3) (ix2 d e) := fun d =>
    (wk_block_apply (V1 m ρ c main_v1) t d e).trans (congrFun (entry_wk m ρ c) (ix2 d e))
  have hb : iblk0 (V1 m ρ) c 5 t (ix2 (0 : Fin 1) e) = m ((c.tc : Thread nD τ).loc main_arg4) (ix1 e) :=
    ((bk_block_apply (V1 m ρ c main_v4) t e).trans (congrFun (entry_bk m ρ c) (ix2 (0 : Fin 1) e))).trans
      (shapeCast_a_1a_apply _ shapeCasts_S1024_S1x1024 (0 : Fin 1) e)
  show k0_pay5 (iblk0 (V1 m ρ) c 0 t) (iblk0 (V1 m ρ) c 2 t) (iblk0 (V1 m ρ) c 5 t) (ix3 (0 : Fin 1) r e)
    = projArr (m ((c.tc : Thread nD τ).loc main_arg0)) (m ((c.tc : Thread nD τ).loc main_arg3)) (m ((c.tc : Thread nD τ).loc main_arg4))
        (((cfg0.win 8).blk t).view.emb (ix3 (0 : Fin 1) r e))
  rw [hemb]
  refine (block_k_apply (iblk0 (V1 m ρ) c 0 t) (iblk0 (V1 m ρ) c 2 t) (iblk0 (V1 m ρ) c 5 t) r e).trans ?_
  exact congrArg₂ (· + ·) (Finset.sum_congr rfl fun d _ => congrArg₂ (· * ·) (hx d) (hw d)) hb

/-- Point `t` writes back, to the third result array, its block of the third projection. -/
theorem flushed_v (c : Dev nD) (t : Fin cfg0.N) :
    (dat0 (V1 m ρ) c).flushed 9 t = ((cfg0.win 9).blk t).view.read (Elt Ideal)
      (projArr (m ((c.tc : Thread nD τ).loc main_arg0)) (m ((c.tc : Thread nD τ).loc main_arg5)) (m ((c.tc : Thread nD τ).loc main_arg6))) := by
  show (cfg0.win 9).cut (grid0.coords t) ((dat0 (V1 m ρ) c).after 9 t) = _
  rw [after0_9]
  unfold out0_9
  rw [View.canon_unit_zero zeros3]
  simp only [View.ld_unit_zero (S := S1x512x1024) zeros3, View.ld_unit_zero (S := S1024x1024) zeros2, View.ld_unit_zero (S := S1x1024) zeros2]
  funext y
  obtain ⟨u, r, e, rfl⟩ : ∃ (u : Fin 1) (r : Fin 512) (e : Fin 1024), (y : S1x512x1024.Idx) = ix3 u r e := ⟨y 0, y 1, y 2, eq_ix3 _⟩
  obtain rfl : u = 0 := Subsingleton.elim _ _
  have ht : t.val < 32 := lt_of_lt_of_eq t.isLt N_0
  obtain ⟨-, -, -, -, -, -, -, -, -, ⟨o0, o1, o2⟩⟩ := block_indices t
  obtain ⟨n, hn⟩ : ∃ n : Fin 4, n.val = t.val / 8 := ⟨⟨t.val / 8, by omega⟩, rfl⟩
  obtain ⟨s, hs⟩ : ∃ s : Fin 4096, s.val = t.val % 8 * 512 + r.val := ⟨⟨t.val % 8 * 512 + r.val, by have := r.isLt; omega⟩, rfl⟩
  -- the entry's place in the array
  have hemb : ((cfg0.win 9).blk t).view.emb (ix3 (0 : Fin 1) r e) = ix3 n s e := funext fun a => Fin.ext (by
    match a with
    | ⟨0, _⟩ => show win0_9.index t (0 : Fin 3) * 1 + 1 * 0 = n.val; omega
    | ⟨1, _⟩ => show win0_9.index t (1 : Fin 3) * 512 + 1 * r.val = s.val; omega
    | ⟨2, _⟩ => show win0_9.index t (2 : Fin 3) * 1024 + 1 * e.val = e.val; omega)
  -- the three input blocks, read where that entry needs them
  have hx : ∀ d : Fin 1024, iblk0 (V1 m ρ) c 0 t (ix3 (0 : Fin 1) r d) = m ((c.tc : Thread nD τ).loc main_arg0) (ix3 n s d) := fun d =>
    (x_block_apply (V1 m ρ c main_arg0) t r d n s hn hs).trans (congrFun (entry_x m ρ c) (ix3 n s d))
  have hw : ∀ d : Fin 1024, iblk0 (V1 m ρ) c 3 t (ix2 d e) = m ((c.tc : Thread nD τ).loc main_arg5) (ix2 d e) := fun d =>
    (wv_block_apply (V1 m ρ c main_v2) t d e).trans (congrFun (entry_wv m ρ c) (ix2 d e))
  have hb : iblk0 (V1 m ρ) c 6 t (ix2 (0 : Fin 1) e) = m ((c.tc : Thread nD τ).loc main_arg6) (ix1 e) :=
    ((bv_block_apply (V1 m ρ c main_v5) t e).trans (congrFun (entry_bv m ρ c) (ix2 (0 : Fin 1) e))).trans
      (shapeCast_a_1a_apply _ shapeCasts_S1024_S1x1024 (0 : Fin 1) e)
  show k0_pay1 (k0_pay3 (iblk0 (V1 m ρ) c 0 t) (iblk0 (V1 m ρ) c 3 t) (iblk0 (V1 m ρ) c 6 t)) (ix3 (0 : Fin 1) r e)
    = projArr (m ((c.tc : Thread nD τ).loc main_arg0)) (m ((c.tc : Thread nD τ).loc main_arg5)) (m ((c.tc : Thread nD τ).loc main_arg6))
        (((cfg0.win 9).blk t).view.emb (ix3 (0 : Fin 1) r e))
  rw [hemb]
  refine (block_v_apply (iblk0 (V1 m ρ) c 0 t) (iblk0 (V1 m ρ) c 3 t) (iblk0 (V1 m ρ) c 6 t) r e).trans ?_
  exact congrArg₂ (· + ·) (Finset.sum_congr rfl fun d _ => congrArg₂ (· * ·) (hx d) (hw d)) hb

/-- An entry of the first result array lies in point `t`'s block iff each coordinate lies in the block's range on its axis. -/
theorem mem_block_q (t : Fin cfg0.N) (i : S4x4096x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v6_0).slice (win0_7.rect t)).set ↔ _
  rw [View.set_slice_whole, Rect.mem_set_unit]
  exact Iff.rfl

/-- Entry `(n, s, e)` of the first result array is written back by the point of batch `n` and slab `s / 512`. -/
theorem covered_q (i : S4x4096x1024.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 1024 := (i 2).isLt
  obtain ⟨t, ht⟩ : ∃ t : Fin cfg0.N, t.val = (i 0).val * 8 + (i 1).val / 512 :=
    ⟨⟨(i 0).val * 8 + (i 1).val / 512, by rw [show cfg0.N = 32 from N_0]; omega⟩, rfl⟩
  obtain ⟨-, -, -, -, -, -, -, ⟨o0, o1, o2⟩, -⟩ := block_indices t
  refine ⟨t, flush0_7 t, ?_⟩
  rw [mem_block_q]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- An entry of the second result array lies in point `t`'s block iff each coordinate lies in the block's range on its axis. -/
theorem mem_block_k (t : Fin cfg0.N) (i : S4x4096x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v6_1).slice (win0_8.rect t)).set ↔ _
  rw [View.set_slice_whole, Rect.mem_set_unit]
  exact Iff.rfl

/-- Entry `(n, s, e)` of the second result array is written back by the point of batch `n` and slab `s / 512`. -/
theorem covered_k (i : S4x4096x1024.Idx) :
    ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 1024 := (i 2).isLt
  obtain ⟨t, ht⟩ : ∃ t : Fin cfg0.N, t.val = (i 0).val * 8 + (i 1).val / 512 :=
    ⟨⟨(i 0).val * 8 + (i 1).val / 512, by rw [show cfg0.N = 32 from N_0]; omega⟩, rfl⟩
  obtain ⟨-, -, -, -, -, -, -, -, ⟨o0, o1, o2⟩, -⟩ := block_indices t
  refine ⟨t, flush0_8 t, ?_⟩
  rw [mem_block_k]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- An entry of the third result array lies in point `t`'s block iff each coordinate lies in the block's range on its axis. -/
theorem mem_block_v (t : Fin cfg0.N) (i : S4x4096x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v6_2).slice (win0_9.rect t)).set ↔ _
  rw [View.set_slice_whole, Rect.mem_set_unit]
  exact Iff.rfl

/-- Entry `(n, s, e)` of the third result array is written back by the point of batch `n` and slab `s / 512`. -/
theorem covered_v (i : S4x4096x1024.Idx) :
    ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 1024 := (i 2).isLt
  obtain ⟨t, ht⟩ : ∃ t : Fin cfg0.N, t.val = (i 0).val * 8 + (i 1).val / 512 :=
    ⟨⟨(i 0).val * 8 + (i 1).val / 512, by rw [show cfg0.N = 32 from N_0]; omega⟩, rfl⟩
  obtain ⟨-, -, -, -, -, -, -, -, -, ⟨o0, o1, o2⟩⟩ := block_indices t
  refine ⟨t, flush0_9 t, ?_⟩
  rw [mem_block_v]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-! ## The three result arrays -/

/-- The first result array ends holding the projection by the first weight matrix and bias. -/
theorem arr_q (c : Dev nD) : (dat0 (V1 m ρ) c).arrAt 7 cfg0.N
    = fun i => SigmoidAttention.proj (m ((c.tc : Thread nD τ).loc main_arg0)) (m ((c.tc : Thread nD τ).loc main_arg1)) (m ((c.tc : Thread nD τ).loc main_arg2)) (i 0) (i 1) (i 2) := by
  exact (dat0 (V1 m ρ) c).arrAt_eq_of_cover 7
    (projArr (m ((c.tc : Thread nD τ).loc main_arg0)) (m ((c.tc : Thread nD τ).loc main_arg1)) (m ((c.tc : Thread nD τ).loc main_arg2)))
    (fun t _ => flushed_q m ρ c t) covered_q

/-- The second, by the second weight matrix and bias. -/
theorem arr_k (c : Dev nD) : (dat0 (V1 m ρ) c).arrAt 8 cfg0.N
    = fun i => SigmoidAttention.proj (m ((c.tc : Thread nD τ).loc main_arg0)) (m ((c.tc : Thread nD τ).loc main_arg3)) (m ((c.tc : Thread nD τ).loc main_arg4)) (i 0) (i 1) (i 2) := by
  exact (dat0 (V1 m ρ) c).arrAt_eq_of_cover 8
    (projArr (m ((c.tc : Thread nD τ).loc main_arg0)) (m ((c.tc : Thread nD τ).loc main_arg3)) (m ((c.tc : Thread nD τ).loc main_arg4)))
    (fun t _ => flushed_k m ρ c t) covered_k

/-- The third, by the third weight matrix and bias. -/
theorem arr_v (c : Dev nD) : (dat0 (V1 m ρ) c).arrAt 9 cfg0.N
    = fun i => SigmoidAttention.proj (m ((c.tc : Thread nD τ).loc main_arg0)) (m ((c.tc : Thread nD τ).loc main_arg5)) (m ((c.tc : Thread nD τ).loc main_arg6)) (i 0) (i 1) (i 2) := by
  exact (dat0 (V1 m ρ) c).arrAt_eq_of_cover 9
    (projArr (m ((c.tc : Thread nD τ).loc main_arg0)) (m ((c.tc : Thread nD τ).loc main_arg5)) (m ((c.tc : Thread nD τ).loc main_arg6)))
    (fun t _ => flushed_v m ρ c t) covered_v

end Cert.KernelIdeal.ProjValue

end
-- ==== Proof.AttnBody.lean ====
/-
  The second kernel region's body at one grid point: what it leaves in the result block, as a function of the
  query, key and value blocks and of what the block held before.
-/
import proofs.«145021_j72662256714429_1_alg».proof.Defs
import proofs.«145021_j72662256714429_1_alg».proof.Proof.Gen.KernelIdeal.Frame
import proofs.«145021_j72662256714429_1_alg».proof.Proof.Spec
import proofs.«145021_j72662256714429_1_alg».proof.Proof.LibRowOps
import Idealize.ShloMosaic.Lib.Pipeline.Value

noncomputable section

open scoped BigOperators

namespace Cert.KernelIdeal.AttnBody

open Cert.KernelIdeal Cert.KernelIdeal.Gen Idealize.ShloMosaic Idealize.ShloMosaic.TcCoe Idealize.SL.Sem Idealize.ShloMosaic.ValueIdx

section AnyF
variable {F : FTy → Type} [FloatOps F]

/-- The zero offsets of a whole-block rectangle, however they are spelt. -/
theorem hz : (![0, 0, 0] : Fin 3 → Nat) = fun _ => 0 := funext fun a => by fin_cases a <;> rfl

/-- At a point that continues a key sweep the body leaves its one store's value over what the block held. -/
theorem out_B (c : Dev nD) (i : grid1.Coords) (a3 : Memref sig .tc .vmem S1x1024x1024 .bf16) (h3 : a3.IsWhole)
    (a4 : Memref sig .tc .vmem S1x1024x1024 .bf16) (h4 : a4.IsWhole) (a5 : Memref sig .tc .vmem S1x1024x1024 .bf16) (h5 : a5.IsWhole)
    (a6 : Memref sig .tc .vmem S1x1024x1024 .f32) (h6 : a6.IsWhole) (hc : ¬cond1_0 i)
    (x0 x1 x2 : Vec F S1x1024x1024 .bf16) (xo : Vec F S1x1024x1024 .f32) :
    out1_B_3 c i a3 h3 a4 h4 a5 h5 a6 h6 hc x0 x1 x2 xo = k1_pay2 x0 x1 x2 xo := by
  unfold out1_B_3
  rw [View.read_writes_eq_canon _ _ _ (cover1_B_3 c i a3 h3 a4 h4 a5 h5 a6 h6 hc x0 x1 x2 xo)]
  unfold kernelRun1_B
  dsimp only
  sl_unfold_words
  rw [View.canon_unit_zero (S := S1x1024x1024) hz]
  simp only [View.readAt_eq_ld, h3.read_unread, h4.read_unread, h5.read_unread, h6.read_unread,
    View.ld_unit_zero (S := S1x1024x1024) hz]

/-- At a point that starts a key sweep the body first stores zeros, and leaves the same value over those. -/
theorem out_A (c : Dev nD) (i : grid1.Coords) (a3 : Memref sig .tc .vmem S1x1024x1024 .bf16) (h3 : a3.IsWhole)
    (a4 : Memref sig .tc .vmem S1x1024x1024 .bf16) (h4 : a4.IsWhole) (a5 : Memref sig .tc .vmem S1x1024x1024 .bf16) (h5 : a5.IsWhole)
    (a6 : Memref sig .tc .vmem S1x1024x1024 .f32) (h6 : a6.IsWhole) (hc : cond1_0 i)
    (x0 x1 x2 : Vec F S1x1024x1024 .bf16) :
    out1_A_3 c i a3 h3 a4 h4 a5 h5 a6 h6 hc x0 x1 x2 = k1_pay2 x0 x1 x2 (k1_pay1 (F := F)) := by
  unfold out1_A_3
  rw [View.read_writes_eq_canon _ _ _ (cover1_A_3 c i a3 h3 a4 h4 a5 h5 a6 h6 hc x0 x1 x2)]
  unfold kernelRun1_A
  dsimp only
  sl_unfold_words
  rw [View.canon_cons_unit_zero (S := S1x1024x1024) hz, View.readCov_unit_zero (S := S1x1024x1024) _ hz]
  simp only [View.readAt_eq_ld, h3.read_unread, h4.read_unread, h5.read_unread,
    View.ld_unit_zero (S := S1x1024x1024) hz]

end AnyF

/-! ## The score product: query rows against key rows

The first product contracts axis 1 of both operands, so its entry at `(p, q)` pairs row `p` of the left operand
with row `q` of the right one. The four axis facts below say where each operand is read; the sum is then
re-indexed by the one contracted coordinate. -/

theorem qk_lhs0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem qk_lhs1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k

theorem qk_rhs0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem qk_rhs1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The score product into the zero splat, at `(p, q)`: row `p` of the left operand against row `q` of the right. -/
theorem matmul_qk_apply {φ₁ φ₂ : FTy} (l : FVec Ideal S1024x1024 φ₁) (r : FVec Ideal S1024x1024 φ₂) (p q : Fin 1024) :
    matmul dot_S1024x1024_S1024x1024_S1024x1024_1_1_0_0_n_n none l r (constant S1024x1024 .f32 0x00000000#32) (ix2 p q)
      = ∑ e : Fin 1024, l (ix2 p e) * r (ix2 q e) := by
  show FloatOps.matmul dot_S1024x1024_S1024x1024_S1024x1024_1_1_0_0_n_n none l r (constant S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun e _ => ?_
  have he := contrEquiv1_symm_val dot_S1024x1024_S1024x1024_S1024x1024_1_1_0_0_n_n 1024 rfl rfl e
  have el : dot_S1024x1024_S1024x1024_S1024x1024_1_1_0_0_n_n.lhsIdx (ix2 p q) ((contrEquiv1 dot_S1024x1024_S1024x1024_S1024x1024_1_1_0_0_n_n 1024 rfl rfl).symm e) = ix2 p e :=
    funext fun a => Fin.ext (by
      match a with
      | ⟨0, _⟩ => exact qk_lhs0 _ _
      | ⟨1, _⟩ => exact (qk_lhs1 _ _).trans he)
  have er : dot_S1024x1024_S1024x1024_S1024x1024_1_1_0_0_n_n.rhsIdx (ix2 p q) ((contrEquiv1 dot_S1024x1024_S1024x1024_S1024x1024_1_1_0_0_n_n 1024 rfl rfl).symm e) = ix2 q e :=
    funext fun a => Fin.ext (by
      match a with
      | ⟨0, _⟩ => exact qk_rhs0 _ _
      | ⟨1, _⟩ => exact (qk_rhs1 _ _).trans he)
  rw [el, er]

/-- The weight the body gives key row `k` for query row `q`: the logistic function of the scaled inner product of
    the two rows (narrowing it to the shorter format changes nothing over the extended reals). -/
theorem weight_apply (x0 x1 : Vec Ideal S1x1024x1024 .bf16) (q k : Fin 1024) :
    (truncf .bf16 (logistic (mulf
        (matmul (F := Ideal) dot_S1024x1024_S1024x1024_S1024x1024_1_1_0_0_n_n none
          (shapeCast S1024x1024 x0 shapeCasts_S1x1024x1024_S1024x1024 : FVec Ideal S1024x1024 .bf16)
          (shapeCast S1024x1024 x1 shapeCasts_S1x1024x1024_S1024x1024 : FVec Ideal S1024x1024 .bf16)
          (constant S1024x1024 .f32 0x00000000#32))
        (broadcast S1024x1024 (Scalar.ofBits .f32 0x3D000000#32)))) bitsLt_bf16_f32 : FVec Ideal S1024x1024 .bf16) (ix2 q k)
      = Ideal.logistic ((∑ e : Fin 1024, x0 (ix3 (0 : Fin 1) q e) * x1 (ix3 (0 : Fin 1) k e)) * SigmoidAttention.scale) := by
  show Ideal.logistic
      (matmul (F := Ideal) dot_S1024x1024_S1024x1024_S1024x1024_1_1_0_0_n_n none
          (shapeCast S1024x1024 x0 shapeCasts_S1x1024x1024_S1024x1024 : FVec Ideal S1024x1024 .bf16)
          (shapeCast S1024x1024 x1 shapeCasts_S1x1024x1024_S1024x1024 : FVec Ideal S1024x1024 .bf16)
          (constant S1024x1024 .f32 0x00000000#32) (ix2 q k)
        * Ideal.ofBits .f32 0x3D000000#32) = _
  rw [matmul_qk_apply]
  refine congrArg (fun s => Ideal.logistic (s * Ideal.ofBits .f32 0x3D000000#32)) ?_
  refine Finset.sum_congr rfl fun e _ => ?_
  rw [shapeCast_1ab_ab_apply, shapeCast_1ab_ab_apply]

/-- The store's value at row `q`, feature `d` of the block: what the block held there, plus the 1024 key rows'
    value entries weighted by the logistic function of the scaled inner products. -/
theorem pay2_apply (x0 x1 x2 : Vec Ideal S1x1024x1024 .bf16) (xo : Vec Ideal S1x1024x1024 .f32) (q d : Fin 1024) :
    k1_pay2 x0 x1 x2 xo (ix3 (0 : Fin 1) q d)
      = xo (ix3 (0 : Fin 1) q d)
        + ∑ k : Fin 1024, Ideal.logistic ((∑ e : Fin 1024, x0 (ix3 (0 : Fin 1) q e) * x1 (ix3 (0 : Fin 1) k e)) * SigmoidAttention.scale)
            * x2 (ix3 (0 : Fin 1) k d) := by
  unfold k1_pay2
  refine (shapeCast_ab_1ab_apply _ _ (0 : Fin 1) q d).trans ?_
  refine (addf_apply _ _ (ix2 q d)).trans ?_
  refine congrArg₂ (· + ·) (shapeCast_1ab_ab_apply xo _ q d) ?_
  refine (RowOps.matmul_plain_apply _ rfl none _ _ q d).trans ?_
  refine Finset.sum_congr rfl fun k _ => ?_
  exact congrArg₂ (· * ·) (weight_apply x0 x1 q k) (shapeCast_1ab_ab_apply x2 _ k d)

/-- The zeros stored at the start of a key sweep. -/
theorem pay1_apply (y : S1x1024x1024.Idx) : k1_pay1 (F := Ideal) y = Ideal.ofBits .f32 0x00000000#32 := by
  unfold k1_pay1
  rw [eq_ix3 y]
  exact shapeCast_ab_1ab_apply _ _ _ _ _

end Cert.KernelIdeal.AttnBody

end
-- ==== Proof.AttnValue.lean ====
/-
  The second kernel region: its result array after the run.

  The region's grid is 4 batch entries by 4 query blocks by 4 key blocks, the key block moving fastest; grid point
  `t` is batch entry `t / 16`, query block `t / 4 % 4`, key block `t % 4`.  The result block `(batch, query block)`
  stays in place while the four key blocks pass: the first of them stores zeros and adds its share, the next three
  add theirs onto what the block holds, and the block is written back after the fourth.  So after point `t` the
  block holds the running sum of the shares of key blocks `0 … t % 4`, and what is written back is the whole sum
  over the 4096 key rows.
-/
import proofs.«145021_j72662256714429_1_alg».proof.Defs
import proofs.«145021_j72662256714429_1_alg».proof.Proof.Gen.KernelIdeal.Frame
import proofs.«145021_j72662256714429_1_alg».proof.Proof.Spec
import proofs.«145021_j72662256714429_1_alg».proof.Proof.AttnBody
import Idealize.ShloMosaic.Lib.Pipeline.Value

noncomputable section

open scoped BigOperators

namespace Cert.KernelIdeal.AttnValue

open Cert.KernelIdeal Cert.KernelIdeal.Gen Idealize.ShloMosaic Idealize.ShloMosaic.TcCoe Idealize.SL.Sem Idealize.ShloMosaic.ValueIdx
open Idealize.ShloMosaic.Pipeline (Dat)
open SigmoidAttention

/-! ## A grid point's batch entry, query rows and key block -/

/-- The batch entry of grid point `n`. -/
def batchOf (n : ℕ) : Fin 4 := ⟨n / 16 % 4, Nat.mod_lt _ (by decide)⟩
/-- Row `r` of grid point `n`'s query block, as a row of the array. -/
def queryRow (n : ℕ) (r : Fin 1024) : Fin 4096 := ⟨n / 4 % 4 * 1024 + r.val, by have := Nat.mod_lt (n / 4) (show 0 < 4 by decide); have := r.isLt; omega⟩
/-- The key block of grid point `n`. -/
def keyBlockOf (n : ℕ) : Fin 4 := ⟨n % 4, Nat.mod_lt _ (by decide)⟩

/-- The block indices the four windows' index maps give at each grid point, decided over the 64 points. -/
theorem index_facts : ∀ t : Fin cfg1.N,
    (win1_0.index t 0 = t.val / 16 % 4 ∧ win1_0.index t 1 = t.val / 4 % 4 ∧ win1_0.index t 2 = 0)
    ∧ (win1_1.index t 0 = t.val / 16 % 4 ∧ win1_1.index t 1 = t.val % 4 ∧ win1_1.index t 2 = 0)
    ∧ (win1_2.index t 0 = t.val / 16 % 4 ∧ win1_2.index t 1 = t.val % 4 ∧ win1_2.index t 2 = 0)
    ∧ (win1_3.index t 0 = t.val / 16 % 4 ∧ win1_3.index t 1 = t.val / 4 % 4 ∧ win1_3.index t 2 = 0) :=
  (by decide +kernel : ∀ t : Fin grid1.N,
    (win1_0.index t 0 = t.val / 16 % 4 ∧ win1_0.index t 1 = t.val / 4 % 4 ∧ win1_0.index t 2 = 0)
    ∧ (win1_1.index t 0 = t.val / 16 % 4 ∧ win1_1.index t 1 = t.val % 4 ∧ win1_1.index t 2 = 0)
    ∧ (win1_2.index t 0 = t.val / 16 % 4 ∧ win1_2.index t 1 = t.val % 4 ∧ win1_2.index t 2 = 0)
    ∧ (win1_3.index t 0 = t.val / 16 % 4 ∧ win1_3.index t 1 = t.val / 4 % 4 ∧ win1_3.index t 2 = 0))

/-! ## The running sum, one step at a time -/

theorem runSum_first (g : Fin 4 → EReal) (j : ℕ) (h : j < 4) (hj : j = 0) :
    runSum g j h = Ideal.ofBits .f32 0x00000000#32 + g ⟨j, h⟩ := by
  subst hj; rfl

theorem runSum_whole (g : Fin 4 → EReal) (j : ℕ) (h : j < 4) (hj : j = 3) : runSum g j h = ∑ i : Fin 4, g i := by
  subst hj; exact runSum_last g h

theorem runSum_next (g : Fin 4 → EReal) (j j' : ℕ) (h : j < 4) (h' : j' < 4) (hj : j = j' + 1) :
    runSum g j h = runSum g j' h' + g ⟨j, h⟩ := by
  subst hj; rfl

variable (V : (c : Dev nD) → (b : Ref sig .tc) → Buf (Elt Ideal) ((c : Thread nD τ).loc b))
variable (Q K W : Fin 4 → Fin 4096 → Fin 1024 → EReal)

/-! ## The blocks the region reads, as rows of the arrays -/

/-- Grid point `t`'s query, key and value blocks and the result block's contents after point `n`, at their literal types. -/
abbrev qblk (c : Dev nD) (t : Fin cfg1.N) : Vec Ideal S1x1024x1024 .bf16 := iblk1 V c 0 t
abbrev kblk (c : Dev nD) (t : Fin cfg1.N) : Vec Ideal S1x1024x1024 .bf16 := iblk1 V c 1 t
abbrev vblk (c : Dev nD) (t : Fin cfg1.N) : Vec Ideal S1x1024x1024 .bf16 := iblk1 V c 2 t
abbrev held (c : Dev nD) (n : ℕ) (hn : n < cfg1.N) : Vec Ideal S1x1024x1024 .f32 := outsAt1 V c n hn

theorem qblk_apply (c : Dev nD) (t : Fin cfg1.N) (hQ : V c main_v6_0 = fun i => Q (i 0) (i 1) (i 2)) (r e : Fin 1024) :
    qblk V c t (ix3 (0 : Fin 1) r e) = Q (batchOf t.val) (queryRow t.val r) e := by
  obtain ⟨⟨h0, h1, h2⟩, -, -, -⟩ := index_facts t
  show iblk1 V c 0 t (ix3 (0 : Fin 1) r e) = _
  unfold iblk1
  rw [View.read_apply]
  show V c main_v6_0 _ = _
  rw [hQ]
  dsimp only
  refine congr (congr (congrArg Q (Fin.ext ?_)) (Fin.ext ?_)) (Fin.ext ?_)
  · show win1_0.index t 0 * 1 + 1 * 0 = t.val / 16 % 4
    rw [h0]; omega
  · show win1_0.index t 1 * 1024 + 1 * r.val = t.val / 4 % 4 * 1024 + r.val
    rw [h1]; omega
  · show win1_0.index t 2 * 1024 + 1 * e.val = e.val
    rw [h2]; omega

theorem kblk_apply (c : Dev nD) (t : Fin cfg1.N) (hK : V c main_v6_1 = fun i => K (i 0) (i 1) (i 2)) (k e : Fin 1024) :
    kblk V c t (ix3 (0 : Fin 1) k e) = K (batchOf t.val) (keyRow (keyBlockOf t.val) k) e := by
  obtain ⟨-, ⟨h0, h1, h2⟩, -, -⟩ := index_facts t
  show iblk1 V c 1 t (ix3 (0 : Fin 1) k e) = _
  unfold iblk1
  rw [View.read_apply]
  show V c main_v6_1 _ = _
  rw [hK]
  dsimp only
  refine congr (congr (congrArg K (Fin.ext ?_)) (Fin.ext ?_)) (Fin.ext ?_)
  · show win1_1.index t 0 * 1 + 1 * 0 = t.val / 16 % 4
    rw [h0]; omega
  · show win1_1.index t 1 * 1024 + 1 * k.val = t.val % 4 * 1024 + k.val
    rw [h1]; omega
  · show win1_1.index t 2 * 1024 + 1 * e.val = e.val
    rw [h2]; omega

theorem vblk_apply (c : Dev nD) (t : Fin cfg1.N) (hW : V c main_v6_2 = fun i => W (i 0) (i 1) (i 2)) (k d : Fin 1024) :
    vblk V c t (ix3 (0 : Fin 1) k d) = W (batchOf t.val) (keyRow (keyBlockOf t.val) k) d := by
  obtain ⟨-, -, ⟨h0, h1, h2⟩, -⟩ := index_facts t
  show iblk1 V c 2 t (ix3 (0 : Fin 1) k d) = _
  unfold iblk1
  rw [View.read_apply]
  show V c main_v6_2 _ = _
  rw [hW]
  dsimp only
  refine congr (congr (congrArg W (Fin.ext ?_)) (Fin.ext ?_)) (Fin.ext ?_)
  · show win1_2.index t 0 * 1 + 1 * 0 = t.val / 16 % 4
    rw [h0]; omega
  · show win1_2.index t 1 * 1024 + 1 * k.val = t.val % 4 * 1024 + k.val
    rw [h1]; omega
  · show win1_2.index t 2 * 1024 + 1 * d.val = d.val
    rw [h2]; omega

/-! ## What the result block holds after each grid point -/

/-- A point that starts a key sweep: zeros, plus the first key block's share. -/
theorem held_start (c : Dev nD) (hQ : V c main_v6_0 = fun i => Q (i 0) (i 1) (i 2)) (hK : V c main_v6_1 = fun i => K (i 0) (i 1) (i 2))
    (hW : V c main_v6_2 = fun i => W (i 0) (i 1) (i 2)) (t : Fin cfg1.N) (h0 : t.val % 4 = 0) (r d : Fin 1024) :
    held V c t.val t.isLt (ix3 (0 : Fin 1) r d)
      = runSum (blockTerm Q K W (batchOf t.val) (queryRow t.val r) d) (t.val % 4) (Nat.mod_lt _ (by decide)) := by
  show outsAt1 V c t.val t.isLt (ix3 (0 : Fin 1) r d) = _
  rw [outsAt1_A V c t h0]
  refine (congrFun (AttnBody.out_A (F := Ideal) c (grid1.coords t) (ms1_0 t) (hs1_0 t) (ms1_1 t) (hs1_1 t) (ms1_2 t) (hs1_2 t) (ms1_3 t) (hs1_3 t)
    ((hcond1_0 t).mpr h0) (qblk V c t) (kblk V c t) (vblk V c t)) (ix3 (0 : Fin 1) r d)).trans ?_
  refine (AttnBody.pay2_apply (qblk V c t) (kblk V c t) (vblk V c t) (k1_pay1 (F := Ideal)) r d).trans ?_
  rw [AttnBody.pay1_apply, runSum_first _ _ _ h0]
  refine congrArg (fun x => Ideal.ofBits .f32 0x00000000#32 + x) ?_
  unfold blockTerm weight
  refine Finset.sum_congr rfl fun k _ => ?_
  rw [vblk_apply V W c t hW k d]
  refine congrArg (fun x => Ideal.logistic (x * scale) * W (batchOf t.val) (keyRow (keyBlockOf t.val) k) d) ?_
  refine Finset.sum_congr rfl fun e _ => ?_
  rw [qblk_apply V Q c t hQ r e, kblk_apply V K c t hK k e]
  rfl

/-- A point that continues a key sweep: what the block held, plus this key block's share. -/
theorem held_next (c : Dev nD) (hQ : V c main_v6_0 = fun i => Q (i 0) (i 1) (i 2)) (hK : V c main_v6_1 = fun i => K (i 0) (i 1) (i 2))
    (hW : V c main_v6_2 = fun i => W (i 0) (i 1) (i 2)) (t : Fin cfg1.N) (h0 : ¬t.val % 4 = 0)
    (ih : ∀ r d : Fin 1024, held V c (t.val - 1) (Nat.lt_of_le_of_lt (Nat.sub_le _ _) t.isLt) (ix3 (0 : Fin 1) r d)
      = runSum (blockTerm Q K W (batchOf (t.val - 1)) (queryRow (t.val - 1) r) d) ((t.val - 1) % 4) (Nat.mod_lt _ (by decide)))
    (r d : Fin 1024) :
    held V c t.val t.isLt (ix3 (0 : Fin 1) r d)
      = runSum (blockTerm Q K W (batchOf t.val) (queryRow t.val r) d) (t.val % 4) (Nat.mod_lt _ (by decide)) := by
  show outsAt1 V c t.val t.isLt (ix3 (0 : Fin 1) r d) = _
  rw [outsAt1_B V c t h0]
  refine (congrFun (AttnBody.out_B (F := Ideal) c (grid1.coords t) (ms1_0 t) (hs1_0 t) (ms1_1 t) (hs1_1 t) (ms1_2 t) (hs1_2 t) (ms1_3 t) (hs1_3 t)
    (fun h => h0 ((hcond1_0 t).mp h)) (qblk V c t) (kblk V c t) (vblk V c t)
    (held V c (t.val - 1) (Nat.lt_of_le_of_lt (Nat.sub_le _ _) t.isLt))) (ix3 (0 : Fin 1) r d)).trans ?_
  refine (AttnBody.pay2_apply (qblk V c t) (kblk V c t) (vblk V c t) (held V c (t.val - 1) (Nat.lt_of_le_of_lt (Nat.sub_le _ _) t.isLt)) r d).trans ?_
  have hb : batchOf (t.val - 1) = batchOf t.val := Fin.ext (by show (t.val - 1) / 16 % 4 = t.val / 16 % 4; omega)
  have hq : queryRow (t.val - 1) r = queryRow t.val r := Fin.ext (by show (t.val - 1) / 4 % 4 * 1024 + r.val = t.val / 4 % 4 * 1024 + r.val; omega)
  rw [ih r d, hb, hq, runSum_next _ (t.val % 4) ((t.val - 1) % 4) _ _ (by omega)]
  refine congrArg (fun x => runSum (blockTerm Q K W (batchOf t.val) (queryRow t.val r) d) ((t.val - 1) % 4) (Nat.mod_lt _ (by decide)) + x) ?_
  unfold blockTerm weight
  refine Finset.sum_congr rfl fun k _ => ?_
  rw [vblk_apply V W c t hW k d]
  refine congrArg (fun x => Ideal.logistic (x * scale) * W (batchOf t.val) (keyRow (keyBlockOf t.val) k) d) ?_
  refine Finset.sum_congr rfl fun e _ => ?_
  rw [qblk_apply V Q c t hQ r e, kblk_apply V K c t hK k e]
  rfl

/-- After every grid point the result block holds the running sum through that point's key block. -/
theorem held_apply (c : Dev nD) (hQ : V c main_v6_0 = fun i => Q (i 0) (i 1) (i 2)) (hK : V c main_v6_1 = fun i => K (i 0) (i 1) (i 2))
    (hW : V c main_v6_2 = fun i => W (i 0) (i 1) (i 2)) :
    ∀ (n : ℕ) (hn : n < cfg1.N) (r d : Fin 1024), held V c n hn (ix3 (0 : Fin 1) r d)
      = runSum (blockTerm Q K W (batchOf n) (queryRow n r) d) (n % 4) (Nat.mod_lt _ (by decide))
  | 0, hn, r, d => held_start V Q K W c hQ hK hW ⟨0, hn⟩ rfl r d
  | n + 1, hn, r, d => by
    by_cases h0 : (n + 1) % 4 = 0
    · exact held_start V Q K W c hQ hK hW ⟨n + 1, hn⟩ h0 r d
    · exact held_next V Q K W c hQ hK hW ⟨n + 1, hn⟩ h0 (fun r d => held_apply c hQ hK hW n (Nat.lt_of_succ_lt hn) r d) r d

/-! ## What is written back, and the array after the run -/

/-- The whole sum over the key rows is the sum of the four key blocks' shares. -/
theorem attn_eq_sum_blocks (n : Fin 4) (q : Fin 4096) (d : Fin 1024) : attn Q K W n q d = ∑ j : Fin 4, blockTerm Q K W n q d j := by
  rw [attn_eq_runSum Q K W n q d (by decide), runSum_last]

/-- What a writing point writes back is its block of the whole sum over the key rows. -/
theorem flushed_eq (c : Dev nD) (hQ : V c main_v6_0 = fun i => Q (i 0) (i 1) (i 2)) (hK : V c main_v6_1 = fun i => K (i 0) (i 1) (i 2))
    (hW : V c main_v6_2 = fun i => W (i 0) (i 1) (i 2)) (t : Fin cfg1.N) (hf : (cfg1.win 3).flush t = true) :
    (dat1 V c).flushed 3 t = ((cfg1.win 3).blk t).view.read (Elt Ideal) (fun i => attn Q K W (i 0) (i 1) (i 2)) := by
  have h3 : t.val % 4 = 3 := (flush1_3 t).mp hf
  obtain ⟨-, -, -, ⟨e0, e1, e2⟩⟩ := index_facts t
  show (cfg1.win 3).cut (grid1.coords t) ((dat1 V c).after 3 t) = _
  rw [after1_3]
  funext j
  obtain ⟨z, r, d, rfl⟩ : ∃ (z : Fin 1) (r d : Fin 1024), (j : S1x1024x1024.Idx) = ix3 z r d := ⟨j 0, j 1, j 2, eq_ix3 _⟩
  obtain rfl : z = 0 := Subsingleton.elim _ _
  rw [View.read_apply]
  show held V c t.val t.isLt (ix3 (0 : Fin 1) r d) = attn Q K W _ _ _
  rw [held_apply V Q K W c hQ hK hW t.val t.isLt r d, runSum_whole _ _ _ h3, ← attn_eq_sum_blocks]
  refine congr (congr (congrArg (attn Q K W) (Fin.ext ?_)) (Fin.ext ?_)) (Fin.ext ?_)
  · show t.val / 16 % 4 = win1_3.index t 0 * 1 + 1 * 0
    rw [e0]; omega
  · show t.val / 4 % 4 * 1024 + r.val = win1_3.index t 1 * 1024 + 1 * r.val
    rw [e1]; omega
  · show d.val = win1_3.index t 2 * 1024 + 1 * d.val
    rw [e2]; omega

/-- An index of the result array lies in grid point `t`'s block when each coordinate is in the block's range. -/
theorem mem_blk (t : Fin cfg1.N) (i : S4x4096x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v7).slice (win1_3.rect t)).set ↔ _
  rw [View.set_slice_whole, Rect.mem_set_unit]
  exact Iff.rfl

/-- Every index of the result array is in the block of a point that writes back: entry `(n, s, e)` in that of the
    last key block of batch entry `n` and query block `s / 1024`. -/
theorem covered (i : S4x4096x1024.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  have hN : cfg1.N = 64 := N_1
  obtain ⟨t, ht⟩ : ∃ t : Fin cfg1.N, t.val = (i 0).val * 16 + (i 1).val / 1024 * 4 + 3 :=
    ⟨⟨(i 0).val * 16 + (i 1).val / 1024 * 4 + 3, by rw [hN]; omega⟩, rfl⟩
  refine ⟨t, (flush1_3 t).mpr (by omega), ?_⟩
  obtain ⟨-, -, -, ⟨e0, e1, e2⟩⟩ := index_facts t
  rw [mem_blk]
  intro a
  match a with
  | ⟨0, _⟩ =>
    show win1_3.index t 0 * 1 ≤ (i 0).val ∧ (i 0).val < win1_3.index t 0 * 1 + 1
    rw [e0]; omega
  | ⟨1, _⟩ =>
    show win1_3.index t 1 * 1024 ≤ (i 1).val ∧ (i 1).val < win1_3.index t 1 * 1024 + 1024
    rw [e1]; omega
  | ⟨2, _⟩ =>
    show win1_3.index t 2 * 1024 ≤ (i 2).val ∧ (i 2).val < win1_3.index t 2 * 1024 + 1024
    rw [e2]; omega

/-- So the result array ends holding the whole sum over the key rows, at every index. -/
theorem arr_out (c : Dev nD) (hQ : V c main_v6_0 = fun i => Q (i 0) (i 1) (i 2)) (hK : V c main_v6_1 = fun i => K (i 0) (i 1) (i 2))
    (hW : V c main_v6_2 = fun i => W (i 0) (i 1) (i 2)) :
    (dat1 V c).arrAt 3 cfg1.N = fun i => attn Q K W (i 0) (i 1) (i 2) :=
  (dat1 V c).arrAt_eq_of_cover 3 _ (fun t hf => flushed_eq V Q K W c hQ hK hW t hf) covered

end Cert.KernelIdeal.AttnValue

end
-- ==== Proof.RefValue.lean ====
/-
  The reference program's result, read index by index at the ideal values: it is the sigmoid attention of the
  three projections of the arguments.
-/
import proofs.«145021_j72662256714429_1_alg».proof.Defs
import proofs.«145021_j72662256714429_1_alg».proof.Proof.Gen.ReferenceIdeal.Run
import proofs.«145021_j72662256714429_1_alg».proof.Proof.Gen.ReferenceIdeal.Read
import proofs.«145021_j72662256714429_1_alg».proof.Proof.Spec
import proofs.«145021_j72662256714429_1_alg».proof.Proof.LibRowOps

noncomputable section

open scoped BigOperators

namespace Cert.ReferenceIdeal.RefValue

open Cert.ReferenceIdeal Cert.ReferenceIdeal.Gen Idealize.ShloMosaic Idealize.ShloMosaic.ValueIdx

/-! ## The three words the scale is made of -/

/-- The word `0x44800000` is the real 1024. -/
theorem ofBits_1024 : Ideal.ofBits .f32 0x44800000#32 = ((1024 : ℝ) : EReal) := by
  simp [Ideal.ofBits, Ideal.ieee, -EReal.coe_mul]; norm_num

/-- The word `0x3D000000` is the real 2⁻⁵, one over thirty-two. -/
theorem ofBits_inv32 : Ideal.ofBits .f32 0x3D000000#32 = (((1 : ℝ) / 32 : ℝ) : EReal) := by
  simp [Ideal.ofBits, Ideal.ieee, -EReal.coe_mul]; norm_num

/-- One over the square root of 1024 is the scale's word. -/
theorem scale_eq : Ideal.div (Ideal.ofBits .f32 0x3F800000#32) (Ideal.sqrt (Ideal.ofBits .f32 0x44800000#32))
    = SigmoidAttention.scale := by
  unfold SigmoidAttention.scale
  have h : Real.sqrt 1024 = 32 := by
    rw [show (1024 : ℝ) = 32 ^ 2 by norm_num, Real.sqrt_sq (by norm_num)]
  rw [ofBits_1024, ofBits_inv32, Ideal.ofBits_one_f32, Ideal.sqrt_coe, if_neg (by norm_num), h,
    Ideal.div_coe (by norm_num), one_mul]

/-! ## The index functions at an index given by its coordinates -/

theorem lidx0 (n : Fin 4) (s : Fin 4096) (e k : Fin 1024) : Read.lidx_main_v0 (ix3 n s e) k = ix3 n s k :=
  funext fun a => Fin.ext (by match a with | ⟨0, _⟩ => rfl | ⟨1, _⟩ => rfl | ⟨2, _⟩ => rfl)

theorem ridx0 (n : Fin 4) (s : Fin 4096) (e k : Fin 1024) : Read.ridx_main_v0 (ix3 n s e) k = ix2 k e :=
  funext fun a => Fin.ext (by match a with | ⟨0, _⟩ => rfl | ⟨1, _⟩ => rfl)

theorem bidx (n : Fin 4) (s : Fin 4096) (e : Fin 1024) : Read.idx_main_v1 (Read.idx_main_v2 (ix3 n s e)) = ix1 e :=
  funext fun a => Fin.ext (by match a with | ⟨0, _⟩ => rfl)

theorem lidx14 (n : Fin 4) (q k : Fin 4096) (e : Fin 1024) : Read.lidx_main_v14 (ix3 n q k) e = ix3 n q e :=
  funext fun a => Fin.ext (by match a with | ⟨0, _⟩ => rfl | ⟨1, _⟩ => rfl | ⟨2, _⟩ => rfl)

theorem ridx14 (n : Fin 4) (q k : Fin 4096) (e : Fin 1024) : Read.ridx_main_v14 (ix3 n q k) e = ix3 n k e :=
  funext fun a => Fin.ext (by match a with | ⟨0, _⟩ => rfl | ⟨1, _⟩ => rfl | ⟨2, _⟩ => rfl)

theorem lidx23 (n : Fin 4) (q k : Fin 4096) (d : Fin 1024) : Read.lidx_main_v23 (ix3 n q d) k = ix3 n q k :=
  funext fun a => Fin.ext (by match a with | ⟨0, _⟩ => rfl | ⟨1, _⟩ => rfl | ⟨2, _⟩ => rfl)

theorem ridx23 (n : Fin 4) (q k : Fin 4096) (d : Fin 1024) : Read.ridx_main_v23 (ix3 n q d) k = ix3 n k d :=
  funext fun a => Fin.ext (by match a with | ⟨0, _⟩ => rfl | ⟨1, _⟩ => rfl | ⟨2, _⟩ => rfl)

/-! ## The three projections -/

/-- The product with a weight matrix plus the bias broadcast in two steps, at `(n, s, e)`, is the projection's entry. -/
theorem proj_q (X : S4x4096x1024.Idx → EReal) (W : S1024x1024.Idx → EReal) (b : S1024.Idx → EReal)
    (n : Fin 4) (s : Fin 4096) (e : Fin 1024) :
    Read.val_main_v3 (F := Ideal) X W b (ix3 n s e) = SigmoidAttention.proj X W b n s e := by
  rw [Read.val_main_v3_apply, Read.val_main_v0_apply, Read.val_main_v2_apply, Read.val_main_v1_apply, bidx]
  unfold SigmoidAttention.proj
  show (∑ k : Fin 1024, X (Read.lidx_main_v0 (ix3 n s e) k) * W (Read.ridx_main_v0 (ix3 n s e) k)) + b (ix1 e) = _
  congr 1
  refine Finset.sum_congr rfl fun k _ => ?_
  rw [lidx0, ridx0]

theorem proj_k (X : S4x4096x1024.Idx → EReal) (W : S1024x1024.Idx → EReal) (b : S1024.Idx → EReal)
    (n : Fin 4) (s : Fin 4096) (e : Fin 1024) :
    Read.val_main_v7 (F := Ideal) X W b (ix3 n s e) = SigmoidAttention.proj X W b n s e :=
  proj_q X W b n s e

theorem proj_v (X : S4x4096x1024.Idx → EReal) (W : S1024x1024.Idx → EReal) (b : S1024.Idx → EReal)
    (n : Fin 4) (s : Fin 4096) (e : Fin 1024) :
    Read.val_main_v11 (F := Ideal) X W b (ix3 n s e) = SigmoidAttention.proj X W b n s e :=
  proj_q X W b n s e

/-! ## The weights -/

/-- The scaled score at `(n, q, k)`. -/
theorem score_apply (X : S4x4096x1024.Idx → EReal) (Wq : S1024x1024.Idx → EReal) (bq : S1024.Idx → EReal)
    (Wk : S1024x1024.Idx → EReal) (bk : S1024.Idx → EReal) (n : Fin 4) (q k : Fin 4096) :
    Read.val_main_v16 (F := Ideal) X Wq bq Wk bk (ix3 n q k)
      = (∑ e : Fin 1024, SigmoidAttention.proj X Wq bq n q e * SigmoidAttention.proj X Wk bk n k e) * SigmoidAttention.scale := by
  rw [Read.val_main_v16_apply, Read.val_main_v14_apply, Read.val_main_v15_apply, Read.val_main_v13_apply,
    Read.val_main_v12_apply, Read.val_main_cst_0_apply, Read.val_main_cst_apply]
  show (∑ e : Fin 1024, Read.val_main_v3 (F := Ideal) X Wq bq (Read.lidx_main_v14 (ix3 n q k) e)
      * Read.val_main_v7 (F := Ideal) X Wk bk (Read.ridx_main_v14 (ix3 n q k) e))
      * Ideal.div (Ideal.ofBits .f32 0x3F800000#32) (Ideal.sqrt (Ideal.ofBits .f32 0x44800000#32)) = _
  rw [scale_eq]
  congr 1
  refine Finset.sum_congr rfl fun e _ => ?_
  rw [lidx14, ridx14, proj_q, proj_k]

/-- The logistic expansion of the scaled score at `(n, q, k)` is the weight. -/
theorem weight_apply (X : S4x4096x1024.Idx → EReal) (Wq : S1024x1024.Idx → EReal) (bq : S1024.Idx → EReal)
    (Wk : S1024x1024.Idx → EReal) (bk : S1024.Idx → EReal) (n : Fin 4) (q k : Fin 4096) :
    Read.val_main_v22 (F := Ideal) X Wq bq Wk bk (ix3 n q k)
      = SigmoidAttention.weight (SigmoidAttention.proj X Wq bq) (SigmoidAttention.proj X Wk bk) n q k := by
  have h := RowOps.logistic_host_apply (s := S4x4096x4096) (Read.val_main_v16 (F := Ideal) X Wq bq Wk bk) ![]
    Facts₀.bcast_S_S4x4096x4096 Facts₀.bcast_S_S4x4096x4096 (ix3 n q k)
  rw [score_apply] at h
  exact h

/-- The reference's last stage, as a function of the seven arguments, is the specification. -/
theorem ref_eq (X : (⟨S4x4096x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (Wv : (⟨S1024x1024, .f32⟩ : BufTy).Contents (Elt Ideal))
    (bv : (⟨S1024, .f32⟩ : BufTy).Contents (Elt Ideal)) :
    Cert.ReferenceIdeal.Read.val_main_v23 X Wq bq Wk bk Wv bv = SigmoidAttention.out X Wq bq Wk bk Wv bv := by
  funext i
  obtain ⟨n, q, d, rfl⟩ : ∃ (n : Fin 4) (q : Fin 4096) (d : Fin 1024), i = ix3 n q d := ⟨i 0, i 1, i 2, eq_ix3 i⟩
  rw [Read.val_main_v23_apply]
  show _ = SigmoidAttention.attn (SigmoidAttention.proj X Wq bq) (SigmoidAttention.proj X Wk bk) (SigmoidAttention.proj X Wv bv) n q d
  unfold SigmoidAttention.attn
  refine Finset.sum_congr rfl fun k _ => ?_
  rw [lidx23, ridx23, weight_apply, proj_v]

end Cert.ReferenceIdeal.RefValue

end
-- ==== Proof.lean ====
/-
  The kernel computes sigmoid attention in two regions and the reference in one pass of host operations; at the
  ideal values both end at one function of the seven argument arrays.

  First region: each block of 512 rows of the activations, narrowed, is multiplied by each of the three narrowed
  weight matrices and the bias row is added; narrowing is the identity at the ideal values, so the three result
  arrays hold the projections `Q`, `K`, `V` with `(∑ d, X[n,s,d] · W[d,e]) + b[e]` at `(n, s, e)`.
  Second region: for a batch entry and a block of 1024 query rows the four blocks of 1024 key rows pass in turn;
  each contributes `∑ k, logistic((∑ e, Q[q,e] · K[k,e]) · 2⁻⁵) · V[k,d]` over its own key rows, added onto the
  block (zeros before the first), and the block is written back after the fourth.
  The reference multiplies the scores by `1 / √1024`, which is `2⁻⁵` exactly, spells the logistic function as
  `1 / (1 + exp(−x))`, which is the logistic function on every extended real, and sums over all 4096 key rows at
  once.  The one law between the two sides is that a sum over 4096 rows is the sum of four sums over 1024 rows
  taken in order from zero: commutativity and associativity of addition, so finiteness of the inputs is not used.
-/
import proofs.«145021_j72662256714429_1_alg».proof.Defs
import proofs.«145021_j72662256714429_1_alg».proof.Proof.Gen.Kernel
import proofs.«145021_j72662256714429_1_alg».proof.Proof.Gen.Kernel.Frame
import proofs.«145021_j72662256714429_1_alg».proof.Proof.Gen.KernelIdeal
import proofs.«145021_j72662256714429_1_alg».proof.Proof.Gen.KernelIdeal.Frame
import proofs.«145021_j72662256714429_1_alg».proof.Proof.Gen.ReferenceIdeal
import proofs.«145021_j72662256714429_1_alg».proof.Proof.Gen.ReferenceIdeal.Run
import proofs.«145021_j72662256714429_1_alg».proof.Proof.Gen.ReferenceIdeal.Read
import proofs.«145021_j72662256714429_1_alg».proof.Proof.Gen.Pre_finite_inputs
import proofs.«145021_j72662256714429_1_alg».proof.Proof.Spec
import proofs.«145021_j72662256714429_1_alg».proof.Proof.KernelRun
import proofs.«145021_j72662256714429_1_alg».proof.Proof.ProjValue
import proofs.«145021_j72662256714429_1_alg».proof.Proof.AttnValue
import proofs.«145021_j72662256714429_1_alg».proof.Proof.RefValue
import Idealize.ShloMosaic.Adequacy
import Idealize.ShloMosaic.Init

noncomputable section

namespace Cert.Proof

open Idealize.ShloMosaic Idealize.SL.Sem

/-! ## The frames -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The kernel's result -/

section Kernel

open Cert.KernelIdeal Cert.KernelIdeal.Gen

variable (m : (ℓ : Loc nD τ sig) → Buf (Elt Ideal) ℓ) (ρ : Dev nD → PrngReg)

/-- What the second region's write-backs leave in the result array is the specification of the arguments: the
    region is entered with the three projections, and sums their attention over all key rows. -/
theorem result_eq (c : Dev nD) : (dat1 (V2 m ρ) c).arrAt 3 cfg1.N
    = SigmoidAttention.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) :=
  Cert.KernelIdeal.AttnValue.arr_out (V2 m ρ)
    (SigmoidAttention.proj (m ((c.tc : Thread nD τ).loc main_arg0)) (m ((c.tc : Thread nD τ).loc main_arg1)) (m ((c.tc : Thread nD τ).loc main_arg2)))
    (SigmoidAttention.proj (m ((c.tc : Thread nD τ).loc main_arg0)) (m ((c.tc : Thread nD τ).loc main_arg3)) (m ((c.tc : Thread nD τ).loc main_arg4)))
    (SigmoidAttention.proj (m ((c.tc : Thread nD τ).loc main_arg0)) (m ((c.tc : Thread nD τ).loc main_arg5)) (m ((c.tc : Thread nD τ).loc main_arg6)))
    c
    ((Cert.KernelIdeal.KernelRun.entry_q m ρ c).trans (Cert.KernelIdeal.ProjValue.arr_q m ρ c))
    ((Cert.KernelIdeal.KernelRun.entry_k m ρ c).trans (Cert.KernelIdeal.ProjValue.arr_k m ρ c))
    ((Cert.KernelIdeal.KernelRun.entry_v m ρ c).trans (Cert.KernelIdeal.ProjValue.arr_v m ρ c))

end Kernel

/-! ## The claims -/

theorem preserves : Cert.preserves_Kernel_KernelIdeal := trivial

/-- Both programs end with the result array at the specification of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun _ h c => ⟨(h c).1.trans (result_eq m ρ c), (h c).2⟩)
    (Cert.KernelIdeal.KernelRun.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v23_eq _ _ _ _ _ _ _).trans (Cert.ReferenceIdeal.RefValue.ref_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
